-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S1024x1024 : Shape := ⟨2, ![1024, 1024]⟩
abbrev S1024 : Shape := ⟨1, ![1024]⟩
abbrev S10x4x1024 : Shape := ⟨3, ![10, 4, 1024]⟩
abbrev S10x1024x4 : Shape := ⟨3, ![10, 1024, 4]⟩
abbrev S32 : Shape := ⟨1, ![32]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S10x4x1024 : S_.BroadcastsInDim S10x4x1024 (![] : Fin 0 → Fin S10x4x1024.rank)
  reducesTo_S10x4x1024_S_d0_1_2 : S10x4x1024.ReducesTo [0, 1, 2] S_
  bcast_S_S10x1024x4 : S_.BroadcastsInDim S10x1024x4 (![] : Fin 0 → Fin S10x1024x4.rank)
  reducesTo_S10x1024x4_S_d0_1_2 : S10x1024x4.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S10x1024x4 .f32) (main_arg5 : IVec S32 32) (main_v13 : IVec S_ 1) (main_v16 : IVec S10x4x1024 1) : IVec S_ 1 :=
  let main_c_5 : IVec S_ 1 := constantI S_ 1 1#1
  let main_v17 : IVec S_ 1 := (fun x v => Host.reduce IntOp.andi x v reducesTo_S10x4x1024_S_d0_1_2 h_S_) main_v16 main_c_5
  let main_v18 : IVec S_ 1 := andi main_v13 main_v17
  let main_v19 : FVec F S10x1024x4 .f32 := Host.absf main_arg4
  let main_cst_6 : FVec F S_ .f32 := constant S_ .f32 0x7F800000#32
  let main_v20 : FVec F S10x1024x4 .f32 := broadcastInDim S10x1024x4 ![] bcast_S_S10x1024x4 main_cst_6
  let main_v21 : IVec S10x1024x4 1 := cmpf .olt main_v19 main_v20
  let main_c_7 : IVec S_ 1 := constantI S_ 1 1#1
  let main_v22 : IVec S_ 1 := (fun x v => Host.reduce IntOp.andi x v reducesTo_S10x1024x4_S_d0_1_2 h_S_) main_v21 main_c_7
  let main_v23 : IVec S_ 1 := andi main_v18 main_v22
  let main_c_8 : IVec S_ 32 := constantI S_ 32 0#32
  let main_v24 : IVec S32 32 := broadcastInDim S32 ![] bcast_S_S32 main_c_8
  let main_v25 : IVec S32 1 := cmpi .sge main_arg5 main_v24
  let main_c_9 : IVec S_ 32 := constantI S_ 32 10#32
  let main_v26 : IVec S32 32 := broadcastInDim S32 ![] bcast_S_S32 main_c_9
  let main_v27 : IVec S32 1 := cmpi .slt main_arg5 main_v26
  let main_v28 : IVec S32 1 := andi main_v25 main_v27
  let main_c_10 : IVec S_ 1 := constantI S_ 1 1#1
  let main_v29 : IVec S_ 1 := (fun x v => Host.reduce IntOp.andi x v reducesTo_S32_S_d0 h_S_) main_v28 main_c_10
  let main_v30 : IVec S_ 1 := andi main_v23 main_v29
  main_v30

def fn {F : FTy → Type} [FloatOps F] (main_arg0 : FVec F S32x2048x1024 .f32) (main_arg1 : FVec F S1024x1024 .f32) (main_arg2 : FVec F S1024 .f32) (main_arg3 : FVec F S10x4x1024 .f32) (main_arg4 : FVec F S10x1024x4 .f32) (main_arg5 : IVec S32 32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S10x4x1024 .f32 := Host.absf main_arg3
  let main_cst_4 : FVec F S_ .f32 := constant S_ .f32 0x7F800000#32
  let main_v15 : FVec F S10x4x1024 .f32 := broadcastInDim S10x4x1024 ![] bcast_S_S10x4x1024 main_cst_4
  let main_v16 : IVec S10x4x1024 1 := cmpf .olt main_v14 main_v15
  fn_part1 (F := F) main_arg4 main_arg5 main_v13 main_v16
-- ==== Kernel.lean ====
abbrev S32x2048x1024 : Shape := ⟨3, ![32, 2048, 1024]⟩
abbrev S1024x1024 : Shape := ⟨2, ![1024, 1024]⟩
abbrev S1024 : Shape := ⟨1, ![1024]⟩
abbrev S10x4x1024 : Shape := ⟨3, ![10, 4, 1024]⟩
abbrev S10x1024x4 : Shape := ⟨3, ![10, 1024, 4]⟩
abbrev S32 : Shape := ⟨1, ![32]⟩
abbrev S_ : Shape := ⟨0, ![]⟩
abbrev S1x1024 : Shape := ⟨2, ![1, 1024]⟩
abbrev S1x1024x1024 : Shape := ⟨3, ![1, 1024, 1024]⟩
abbrev S1x4x1024 : Shape := ⟨3, ![1, 4, 1024]⟩
abbrev S1 : Shape := ⟨1, ![1]⟩
abbrev S4x1024 : Shape := ⟨2, ![4, 1024]⟩
abbrev S1024x4 : Shape := ⟨2, ![1024, 4]⟩

abbrev nBuf : Space → Nat
  | .hbm => 20
  | .vmem => 10
  | .smem => 1
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S1024, .f32⟩
  | .hbm, ⟨3, _⟩ => ⟨S10x4x1024, .f32⟩
  | .hbm, ⟨4, _⟩ => ⟨S10x1024x4, .f32⟩
  | .hbm, ⟨5, _⟩ => ⟨S32, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S1x1024, .f32⟩
  | .hbm, ⟨14, _⟩ => ⟨S1024x1024, .f32⟩
  | .hbm, ⟨15, _⟩ => ⟨S1024x1024, .bf16⟩
  | .hbm, ⟨16, _⟩ => ⟨S10x4x1024, .bf16⟩
  | .hbm, ⟨17, _⟩ => ⟨S10x4x1024, .f32⟩
  | .hbm, ⟨18, _⟩ => ⟨S10x4x1024, .bf16⟩
  | .hbm, ⟨19, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x4x1024, .bf16⟩
  | .local _ .vmem, ⟨5, _⟩ => ⟨S1x4x1024, .bf16⟩
  | .local _ .vmem, ⟨6, _⟩ => ⟨S1x4x1024, .bf16⟩
  | .local _ .vmem, ⟨7, _⟩ => ⟨S1x4x1024, .bf16⟩
  | .local _ .vmem, ⟨8, _⟩ => ⟨S1x1024x1024, .f32⟩
  | .local _ .vmem, ⟨9, _⟩ => ⟨S1x1024x1024, .f32⟩
  | .local _ .smem, ⟨0, _⟩ => ⟨S32, .i32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S32 : S_.BroadcastsInDim S32 (![] : Fin 0 → Fin S32.rank)
  shapeCasts_S1024_S1x1024 : S1024.ShapeCasts S1x1024
  transposes_S1024x1024_S1024x1024_1_0 : S1024x1024.Transposes [1, 0] S1024x1024
  bitsLt_bf16_f32 : FTy.bits .bf16 < FTy.bits .f32
  transposes_S10x1024x4_S10x4x1024_0_2_1 : S10x1024x4.Transposes [0, 2, 1] S10x4x1024
  numel1_S1 : S1.numel = 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  broadcasts_S1x1024_S1024x1024 : S1x1024.Broadcasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S1024x1024_S4x1024_S1024x4_1_1_0_0_n_n_wf : DotDims.WF S1024x1024 S4x1024 S1024x4 [1] [1] [0] [0] [] []
  dot_S1024x4_S4x1024_S1024x1024_1_0_0_1_n_n_wf : DotDims.WF S1024x4 S4x1024 S1024x1024 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x2048x1024.size a
  hwx0_0 : ∀ i : grid0.Coords, EltTy.bits .f32 = 32 ∨ (Rect.block (s := S32x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S32x2048x1024.size a
  hwx0_5 : ∀ i : grid0.Coords, EltTy.bits .f32 = 32 ∨ (Rect.block (s := S32x2048x1024) S1x1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S4x1024_S1024x4_1_1_0_0_n_n : DotDims S1024x1024 S4x1024 S1024x4 where
  lhsContracting := [1]
  rhsContracting := [1]
  lhsNonContracting := [0]
  rhsNonContracting := [0]
  lhsBatch := []
  rhsBatch := []
  wf := dot_S1024x1024_S4x1024_S1024x4_1_1_0_0_n_n_wf
def dot_S1024x4_S4x1024_S1024x1024_1_0_0_1_n_n : DotDims S1024x4 S4x1024 S1024x1024 where
  lhsContracting := [1]
  rhsContracting := [0]
  lhsNonContracting := [0]
  rhsNonContracting := [1]
  lhsBatch := []
  rhsBatch := []
  wf := dot_S1024x4_S4x1024_S1024x1024_1_0_0_1_n_n_wf

abbrev spec0_0 : Pipeline.WinSpec sig grid0.rank :=
  Pipeline.WinSpec.ofSpec (Memref.whole main_arg0) S1x1024x1024.size reads0_0 false false 2 stage0_0 sem0_0 nbuf0_0 hstage0_0

abbrev spec0_1 : Pipeline.WinSpec sig grid0.rank :=
  Pipeline.WinSpec.ofSpec (Memref.whole main_v3) S1024x1024.size reads0_1 false true 1 stage0_1 sem0_1 nbuf0_1 hstage0_1

abbrev spec0_2 : Pipeline.WinSpec sig grid0.rank :=
  Pipeline.WinSpec.ofSpec (Memref.whole main_v1) S1x1024.size reads0_2 false true 1 stage0_2 sem0_2 nbuf0_2 hstage0_2

abbrev spec0_3 : Pipeline.WinSpec sig grid0.rank :=
  Pipeline.WinSpec.ofSpec (Memref.whole main_v4) S1x4x1024.size reads0_3 false false 2 stage0_3 sem0_3 nbuf0_3 hstage0_3

abbrev spec0_4 : Pipeline.WinSpec sig grid0.rank :=
  Pipeline.WinSpec.ofSpec (Memref.whole main_v6) S1x4x1024.size reads0_4 false false 2 stage0_4 sem0_4 nbuf0_4 hstage0_4

abbrev spec0_5 : Pipeline.WinSpec sig grid0.rank :=
  Pipeline.WinSpec.ofSpec (Memref.whole main_v7) S1x1024x1024.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 k0_off1_inb numel1_S1 pf | 4 => cc0_transform_4 k0_off1_inb numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 pf | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_3 k0_off1_inb numel1_S1 pf i a + 1) * S1x4x1024.size a ≤ S10x4x1024.size a), EltTy.bits .bf16 = 32 ∨ (Rect.block (s := S10x4x1024) S1x4x1024.size (cc0_transform_3 k0_off1_inb numel1_S1 pf i) h).WholeWords (EltTy.packing .bf16)) ∧
  (∀ i : grid0.Coords, ∃ h : (∀ a, (cc0_transform_4 k0_off1_inb numel1_S1 pf i a + 1) * S1x4x1024.size a ≤ S10x4x1024.size a), EltTy.bits .bf16 = 32 ∨ (Rect.block (s := S10x4x1024) S1x4x1024.size (cc0_transform_4 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => fun i a => (hok.1 i).elim fun h _ => h a | 4 => fun i a => (hok.2 i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => fun i => (hok.1 i).elim fun _ h => h | 4 => fun i => (hok.2 i).elim fun _ h => h | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S32x2048x1024 : Shape := ⟨3, ![32, 2048, 1024]⟩
abbrev S1024x1024 : Shape := ⟨2, ![1024, 1024]⟩
abbrev S1024 : Shape := ⟨1, ![1024]⟩
abbrev S10x4x1024 : Shape := ⟨3, ![10, 4, 1024]⟩
abbrev S10x1024x4 : Shape := ⟨3, ![10, 1024, 4]⟩
abbrev S32 : Shape := ⟨1, ![32]⟩
abbrev S1x1x1024 : Shape := ⟨3, ![1, 1, 1024]⟩
abbrev S_ : Shape := ⟨0, ![]⟩
abbrev S32x1 : Shape := ⟨2, ![32, 1]⟩
abbrev S32x4x1024 : Shape := ⟨3, ![32, 4, 1024]⟩
abbrev S32x1024x4 : Shape := ⟨3, ![32, 1024, 4]⟩
abbrev S32x2048x4 : Shape := ⟨3, ![32, 2048, 4]⟩

abbrev nBuf : Space → Nat
  | .hbm => 34
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S1024, .f32⟩
  | .hbm, ⟨3, _⟩ => ⟨S10x4x1024, .f32⟩
  | .hbm, ⟨4, _⟩ => ⟨S10x1024x4, .f32⟩
  | .hbm, ⟨5, _⟩ => ⟨S32, .i32⟩
  | .hbm, ⟨6, _⟩ => ⟨S32x2048x1024, .f32⟩
  | .hbm, ⟨7, _⟩ => ⟨S1x1x1024, .f32⟩
  | .hbm, ⟨8, _⟩ => ⟨S32x2048x1024, .f32⟩
  | .hbm, ⟨9, _⟩ => ⟨S32x2048x1024, .f32⟩
  | .hbm, ⟨10, _⟩ => ⟨S_, .i32⟩
  | .hbm, ⟨11, _⟩ => ⟨S32, .i32⟩
  | .hbm, ⟨12, _⟩ => ⟨S32, .i1⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S32x1, .i32⟩
  | .hbm, ⟨18, _⟩ => ⟨S32x4x1024, .f32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S32x1, .i32⟩
  | .hbm, ⟨27, _⟩ => ⟨S32x1024x4, .f32⟩
  | .hbm, ⟨28, _⟩ => ⟨S32x2048x4, .f32⟩
  | .hbm, ⟨29, _⟩ => ⟨S32x2048x1024, .f32⟩
  | .hbm, ⟨30, _⟩ => ⟨S_, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  bcast_S_S32 : S_.BroadcastsInDim S32 (![] : Fin 0 → Fin S32.rank)
  bcast_S32_S32x1_0 : S32.BroadcastsInDim S32x1 (![0] : Fin 1 → Fin S32x1.rank)
  bcast_S_S32x2048x1024 : S_.BroadcastsInDim S32x2048x1024 (![] : Fin 0 → Fin S32x2048x1024.rank)
  dot_S32x2048x1024_S1024x1024_S32x2048x1024_2_1_01_0_n_n_wf : DotDims.WF S32x2048x1024 S1024x1024 S32x2048x1024 [2] [1] [0, 1] [0] [] []
  gather_S10x4x1024_S32x1_S32x4x1024_12_0_n_n_0_1_141024_wf : GatherDims.WF S10x4x1024 S32x1 S32x4x1024 [1, 2] [0] [] [0] [] 1 ![1, 4, 1024]
  gather_S10x1024x4_S32x1_S32x1024x4_12_0_n_n_0_1_110244_wf : GatherDims.WF S10x1024x4 S32x1 S32x1024x4 [1, 2] [0] [] [0] [] 1 ![1, 1024, 4]
  dot_S32x2048x1024_S32x4x1024_S32x2048x4_2_2_1_1_0_0_wf : DotDims.WF S32x2048x1024 S32x4x1024 S32x2048x4 [2] [2] [1] [1] [0] [0]
  dot_S32x2048x4_S32x1024x4_S32x2048x1024_2_2_1_1_0_0_wf : DotDims.WF S32x2048x4 S32x1024x4 S32x2048x1024 [2] [2] [1] [1] [0] [0]

variable [Facts₀]

def dot_S32x2048x1024_S1024x1024_S32x2048x1024_2_1_01_0_n_n : DotDims S32x2048x1024 S1024x1024 S32x2048x1024 where
  lhsContracting := [2]
  rhsContracting := [1]
  lhsNonContracting := [0, 1]
  rhsNonContracting := [0]
  lhsBatch := []
  rhsBatch := []
  wf := dot_S32x2048x1024_S1024x1024_S32x2048x1024_2_1_01_0_n_n_wf
def gather_S10x4x1024_S32x1_S32x4x1024_12_0_n_n_0_1_141024 : GatherDims S10x4x1024 S32x1 S32x4x1024 where
  offsetDims := [1, 2]
  collapsedSliceDims := [0]
  operandBatchingDims := []
  startIndicesBatchingDims := []
  startIndexMap := [0]
  indexVectorDim := 1
  sliceSizes := ![1, 4, 1024]
  wf := gather_S10x4x1024_S32x1_S32x4x1024_12_0_n_n_0_1_141024_wf
def gather_S10x1024x4_S32x1_S32x1024x4_12_0_n_n_0_1_110244 : GatherDims S10x1024x4 S32x1 S32x1024x4 where
  offsetDims := [1, 2]
  collapsedSliceDims := [0]
  operandBatchingDims := []
  startIndicesBatchingDims := []
  startIndexMap := [0]
  indexVectorDim := 1
  sliceSizes := ![1, 1024, 4]
  wf := gather_S10x1024x4_S32x1_S32x1024x4_12_0_n_n_0_1_110244_wf
def dot_S32x2048x1024_S32x4x1024_S32x2048x4_2_2_1_1_0_0 : DotDims S32x2048x1024 S32x4x1024 S32x2048x4 where
  lhsContracting := [2]
  rhsContracting := [2]
  lhsNonContracting := [1]
  rhsNonContracting := [1]
  lhsBatch := [0]
  rhsBatch := [0]
  wf := dot_S32x2048x1024_S32x4x1024_S32x2048x4_2_2_1_1_0_0_wf
def dot_S32x2048x4_S32x1024x4_S32x2048x1024_2_2_1_1_0_0 : DotDims S32x2048x4 S32x1024x4 S32x2048x1024 where
  lhsContracting := [2]
  rhsContracting := [2]
  lhsNonContracting := [1]
  rhsNonContracting := [1]
  lhsBatch := [0]
  rhsBatch := [0]
  wf := dot_S32x2048x4_S32x1024x4_S32x2048x1024_2_2_1_1_0_0_wf

class Facts : Prop extends Facts₀ where

variable [Facts]
-- ==== Proof.Words.lean ====
/-
  Subject ids as 32-bit words. A word that reads, signed, in [0, 10) names one of the ten adapters: its unsigned value is
  below 10; clamping it into [0, 9] leaves it unchanged; numpy's wrap of a negative index (add 10 where the word is
  negative) leaves it unchanged; and StableHLO's clamp of a gather's start index into [0, 10 - 1] reads its value.
-/
import Idealize.ShloMosaic.Lib.Affine
import Idealize.ShloMosaic.PureOps

namespace Cert.Lora.Words

open Idealize.ShloMosaic

/-- The word reads, signed, at least 0 and below 10 (as the two comparison words of the precondition say). -/
def InRange (w : BitVec 32) : Prop := IntOp.cmpi .sge w 0#32 = 1#1 ∧ IntOp.cmpi .slt w 10#32 = 1#1

theorem toInt_bounds {w : BitVec 32} (h : InRange w) : 0 ≤ w.toInt ∧ w.toInt < 10 := by
  obtain ⟨h0, h1⟩ := h
  rw [IntOp.cmpi_sge] at h0
  rw [IntOp.cmpi_slt] at h1
  have e0 : (0#32 : BitVec 32).toInt = 0 := by decide
  have e1 : (10#32 : BitVec 32).toInt = 10 := by decide
  omega

/-- Signed and unsigned readings agree on such a word, and the value is below 10. -/
theorem toInt_eq_toNat {w : BitVec 32} (h : InRange w) : w.toInt = (w.toNat : Int) ∧ w.toNat < 10 := by
  have hb := toInt_bounds h
  have h32 := w.isLt
  rw [BitVec.toInt_eq_toNat_cond] at hb ⊢
  split at hb <;> rename_i hc
  · rw [if_pos hc]; omega
  · omega

theorem toNat_lt {w : BitVec 32} (h : InRange w) : w.toNat < 10 := (toInt_eq_toNat h).2

/-- The clamp into [0, 9] (a maximum with 0, then a minimum with 9) does not move it. -/
theorem clamp_eq {w : BitVec 32} (h : InRange w) : IntOp.minsi 9#32 (IntOp.maxsi 0#32 w) = w := by
  have hb := toInt_bounds h
  have e0 : (0#32 : BitVec 32).toInt = 0 := by decide
  have e9 : (9#32 : BitVec 32).toInt = 9 := by decide
  have hmax : IntOp.maxsi 0#32 w = w := by
    unfold IntOp.maxsi
    rw [if_neg (by rw [BitVec.slt_iff_toInt_lt, e0]; omega)]
  rw [hmax]
  unfold IntOp.minsi
  rw [if_neg (by rw [BitVec.slt_iff_toInt_lt, e9]; omega)]

/-- Numpy's index normalisation (add the extent where the index is negative) does not move it. -/
theorem wrap_eq {w : BitVec 32} (h : InRange w) :
    Scalar.select (IntOp.cmpi .slt w 0#32) (IntOp.addi w 10#32) w = w := by
  have hb := toInt_bounds h
  have e0 : (0#32 : BitVec 32).toInt = 0 := by decide
  have hc : ¬IntOp.cmpi .slt w 0#32 = 1#1 := by rw [IntOp.cmpi_slt, e0]; omega
  exact if_neg hc

/-- The gather's clamp of the start index into [0, 10 - 1] reads the word's value. -/
theorem clampNat_eq {w : BitVec 32} (h : InRange w) : min w.toInt.toNat (10 - 1) = w.toNat := by
  obtain ⟨e, hlt⟩ := toInt_eq_toNat h
  rw [e, Int.toNat_natCast]
  omega

end Cert.Lora.Words
-- ==== Proof.PreRange.lean ====
/-
  The precondition read back: beside the finiteness of the float inputs it says that every subject id reads, signed,
  in [0, 10). The printed predicate is a conjunction (an `and` of one-bit words) whose last conjunct is `jnp.all` — a
  reduce by `and` over the 32 lanes — of "id ≥ 0 and id < 10"; the whole being 1 makes that conjunct 1 at every lane.
-/
import proofs.«404578_j89489938579611_3_alg».proof.Pre_finite_inputs
import proofs.«404578_j89489938579611_3_alg».proof.Proof.Words
import Idealize.ShloMosaic.Lib.ReduceAll
import Idealize.ShloMosaic.Lib.ValueIdx

namespace Cert.Lora.PreRange

open Idealize.ShloMosaic Idealize.ShloMosaic.ValueIdx Cert.Lora.Words Cert.Pre_finite_inputs

instance : Subsingleton S_.Idx := ⟨fun a b => funext fun d => d.elim0⟩

/-- Every lane of the subject-id vector is in range when the printed precondition is all ones. -/
theorem range_of_pre {F : FTy → Type} [FloatOps F] [Cert.Pre_finite_inputs.Facts]
    (a0 : FVec F S32x2048x1024 .f32) (a1 : FVec F S1024x1024 .f32) (a2 : FVec F S1024 .f32)
    (a3 : FVec F S10x4x1024 .f32) (a4 : FVec F S10x1024x4 .f32) (a5 : IVec S32 32)
    (h : Cert.Pre_finite_inputs.fn (F := F) a0 a1 a2 a3 a4 a5 = fun _ => 1#1) (k : S32.Idx) : InRange (a5 k) := by
  have e := congrFun h ix0
  unfold Cert.Pre_finite_inputs.fn at e
  dsimp only at e
  unfold Cert.Pre_finite_inputs.fn_part1 at e
  dsimp only at e
  obtain ⟨-, e29⟩ := IntOp.andi_eq_one.1 e
  have hk := Host.reduce_andi_all _ _ _ _ _ e29 k
  obtain ⟨h0, h1⟩ := IntOp.andi_eq_one.1 hk
  exact ⟨h0, h1⟩

end Cert.Lora.PreRange
-- ==== Proof.AdapterBits.lean ====
/-
  The prefetched table, and the pipeline's side condition of it. The table the two adapter windows' index maps read is
  the subject ids clamped into [0, 9] by the host operations before the call (a maximum with 0, a minimum with 9). Under
  the precondition every id already reads in [0, 10), so the table IS the ids; each entry's value is below 10, so block
  (entry, 0, 0) of extent [1, 4, 1024] lies inside the [10, 4, 1024] array it indexes, and a block of four bf16 rows is
  whole words: the side condition holds.
-/
import proofs.«404578_j89489938579611_3_alg».proof.Defs
import proofs.«404578_j89489938579611_3_alg».proof.Proof.Gen.Kernel.Frame
import proofs.«404578_j89489938579611_3_alg».proof.Proof.Words
import Idealize.ShloMosaic.Lib.StableHlo.Run
import Idealize.ShloMosaic.Lib.ValueIdx

set_option maxRecDepth 16384

noncomputable section

namespace Cert.Kernel.Adapter

open Cert.Kernel Cert.Kernel.Gen
open Idealize.ShloMosaic Idealize.ShloMosaic.TcCoe Idealize.SL.Sem Idealize.ShloMosaic.ValueIdx Cert.Lora.Words

variable {F : FTy → Type} [FloatOps F]
variable (m : (ℓ : Loc nD τ sig) → Buf (Elt F) ℓ)

/-- The subject ids as launched (the program runs on one device). -/
abbrev ids : IVec S32 32 := m (((0 : Dev nD) : Thread nD τ).loc main_arg5)

/-- The table as the region finds it: the ids clamped into [0, 9]. -/
theorem tbl_eq : tbl m 0 = minsi (broadcastInDim S32 ![] bcast_S_S32 (constantI S_ 32 9#32))
    (maxsi (broadcastInDim S32 ![] bcast_S_S32 (constantI S_ 32 0#32)) (ids m)) := by
  unfold tbl
  show V m 0 main_v0 = _
  dsimp only [V]
  simp only [hostOps0, hostOps0_1, hostOps0_2, List.flatten_cons, List.flatten_nil, List.append_nil, List.cons_append,
    List.nil_append]
  after_results
  rfl

/-- Where every id is in range, an entry of the table is the id. -/
theorem tbl_apply (hr : ∀ k, InRange (ids m k)) (k : S32.Idx) : tbl m 0 k = ids m k := by
  rw [tbl_eq]
  exact clamp_eq (hr k)

/-- The entry the adapter windows' index maps read at a grid point: the point's batch coordinate's. -/
theorem word_eq (pf : pre0.Contents (Elt F)) (i : grid0.Coords) :
    pf.at 0 (Rect.unit (s := S32) ![(Scalar.indexCast (BitVec.ofNat 32 (i 0).val)).toNat] S1.size (k0_off1_inb i)) numel1_S1
      = pf 0 (ix1 ⟨(i 0).val, (i 0).isLt⟩) := by
  show pf 0 _ = pf 0 _
  congr 1
  funext a
  apply Fin.ext
  match a with
  | ⟨0, _⟩ =>
    show (Scalar.indexCast (BitVec.ofNat 32 (i 0).val)).toNat + 1 * (Shape.Idx.first (numel1_S1.symm ▸ Nat.one_pos) (0 : Fin 1)).val = (i 0).val
    have h0 : (Shape.Idx.first (numel1_S1.symm ▸ Nat.one_pos : 0 < S1.numel) (0 : Fin 1)).val = 0 := by
      have := (Shape.Idx.first (numel1_S1.symm ▸ Nat.one_pos : 0 < S1.numel) (0 : Fin 1)).isLt
      have e : S1.size (0 : Fin 1) = 1 := by decide
      omega
    have h1 : (Scalar.indexCast (BitVec.ofNat 32 (i 0).val)).toNat = (i 0).val := by
      show (BitVec.ofNat 32 (i 0).val).toNat = _
      have := (i 0).isLt
      have e : grid0.bound (0 : Fin 2) = 32 := by decide
      rw [BitVec.toNat_ofNat]
      omega
    rw [h0, h1]
    omega

/-- The block index of the first adapter window (the adapters' A factors) at a grid point. -/
theorem indexA_eq (pf : pre0.Contents (Elt F)) (i : grid0.Coords) :
    cc0_transform_3 k0_off1_inb numel1_S1 pf i = ![(pf 0 (ix1 ⟨(i 0).val, (i 0).isLt⟩)).toNat, 0, 0] := by
  unfold cc0_transform_3
  dsimp only
  rw [word_eq]
  rfl

/-- The block index of the second adapter window (the transposed B factors) at a grid point. -/
theorem indexB_eq (pf : pre0.Contents (Elt F)) (i : grid0.Coords) :
    cc0_transform_4 k0_off1_inb numel1_S1 pf i = ![(pf 0 (ix1 ⟨(i 0).val, (i 0).isLt⟩)).toNat, 0, 0] := by
  unfold cc0_transform_4
  dsimp only
  rw [word_eq]
  rfl

/-- A block (w, 0, 0) with w below 10 lies inside the stack of ten adapters. -/
theorem block_inb (w : Nat) (hw : w < 10) : ∀ a, ((![w, 0, 0] : Fin 3 → Nat) a + 1) * S1x4x1024.size a ≤ S10x4x1024.size a := by
  intro a
  fin_cases a <;> simp [S1x4x1024, S10x4x1024] <;> omega

/-- THE SIDE CONDITION, from the ids' range (what the precondition says of them). -/
theorem ok_of_range (hr : ∀ k, InRange (ids m k)) : Ok m := by
  have hl : ∀ k, (tbl m 0 k).toNat < 10 := fun k => by rw [tbl_apply m hr k]; exact toNat_lt (hr k)
  refine ⟨fun i => ?_, fun i => ?_⟩
  · refine ⟨fun a => ?_, .inr (Affine.block_words_dvd (of_decide_eq_true rfl) (by decide))⟩
    rw [indexA_eq]
    exact block_inb _ (hl _) a
  · refine ⟨fun a => ?_, .inr (Affine.block_words_dvd (of_decide_eq_true rfl) (by decide))⟩
    rw [indexB_eq]
    exact block_inb _ (hl _) a

end Cert.Kernel.Adapter

end
-- ==== Proof.AdapterIdeal.lean ====
/-
  The prefetched table, and the pipeline's side condition of it. The table the two adapter windows' index maps read is
  the subject ids clamped into [0, 9] by the host operations before the call (a maximum with 0, a minimum with 9). Under
  the precondition every id already reads in [0, 10), so the table IS the ids; each entry's value is below 10, so block
  (entry, 0, 0) of extent [1, 4, 1024] lies inside the [10, 4, 1024] array it indexes, and a block of four bf16 rows is
  whole words: the side condition holds.
-/
import proofs.«404578_j89489938579611_3_alg».proof.Defs
import proofs.«404578_j89489938579611_3_alg».proof.Proof.Gen.KernelIdeal.Frame
import proofs.«404578_j89489938579611_3_alg».proof.Proof.Words
import Idealize.ShloMosaic.Lib.StableHlo.Run
import Idealize.ShloMosaic.Lib.ValueIdx

set_option maxRecDepth 16384

noncomputable section

namespace Cert.KernelIdeal.Adapter

open Cert.KernelIdeal Cert.KernelIdeal.Gen
open Idealize.ShloMosaic Idealize.ShloMosaic.TcCoe Idealize.SL.Sem Idealize.ShloMosaic.ValueIdx Cert.Lora.Words

variable {F : FTy → Type} [FloatOps F]
variable (m : (ℓ : Loc nD τ sig) → Buf (Elt F) ℓ)

/-- The subject ids as launched (the program runs on one device). -/
abbrev ids : IVec S32 32 := m (((0 : Dev nD) : Thread nD τ).loc main_arg5)

/-- The table as the region finds it: the ids clamped into [0, 9]. -/
theorem tbl_eq : tbl m 0 = minsi (broadcastInDim S32 ![] bcast_S_S32 (constantI S_ 32 9#32))
    (maxsi (broadcastInDim S32 ![] bcast_S_S32 (constantI S_ 32 0#32)) (ids m)) := by
  unfold tbl
  show V m 0 main_v0 = _
  dsimp only [V]
  simp only [hostOps0, hostOps0_1, hostOps0_2, List.flatten_cons, List.flatten_nil, List.append_nil, List.cons_append,
    List.nil_append]
  after_results
  rfl

/-- Where every id is in range, an entry of the table is the id. -/
theorem tbl_apply (hr : ∀ k, InRange (ids m k)) (k : S32.Idx) : tbl m 0 k = ids m k := by
  rw [tbl_eq]
  exact clamp_eq (hr k)

/-- The entry the adapter windows' index maps read at a grid point: the point's batch coordinate's. -/
theorem word_eq (pf : pre0.Contents (Elt F)) (i : grid0.Coords) :
    pf.at 0 (Rect.unit (s := S32) ![(Scalar.indexCast (BitVec.ofNat 32 (i 0).val)).toNat] S1.size (k0_off1_inb i)) numel1_S1
      = pf 0 (ix1 ⟨(i 0).val, (i 0).isLt⟩) := by
  show pf 0 _ = pf 0 _
  congr 1
  funext a
  apply Fin.ext
  match a with
  | ⟨0, _⟩ =>
    show (Scalar.indexCast (BitVec.ofNat 32 (i 0).val)).toNat + 1 * (Shape.Idx.first (numel1_S1.symm ▸ Nat.one_pos) (0 : Fin 1)).val = (i 0).val
    have h0 : (Shape.Idx.first (numel1_S1.symm ▸ Nat.one_pos : 0 < S1.numel) (0 : Fin 1)).val = 0 := by
      have := (Shape.Idx.first (numel1_S1.symm ▸ Nat.one_pos : 0 < S1.numel) (0 : Fin 1)).isLt
      have e : S1.size (0 : Fin 1) = 1 := by decide
      omega
    have h1 : (Scalar.indexCast (BitVec.ofNat 32 (i 0).val)).toNat = (i 0).val := by
      show (BitVec.ofNat 32 (i 0).val).toNat = _
      have := (i 0).isLt
      have e : grid0.bound (0 : Fin 2) = 32 := by decide
      rw [BitVec.toNat_ofNat]
      omega
    rw [h0, h1]
    omega

/-- The block index of the first adapter window (the adapters' A factors) at a grid point. -/
theorem indexA_eq (pf : pre0.Contents (Elt F)) (i : grid0.Coords) :
    cc0_transform_3 k0_off1_inb numel1_S1 pf i = ![(pf 0 (ix1 ⟨(i 0).val, (i 0).isLt⟩)).toNat, 0, 0] := by
  unfold cc0_transform_3
  dsimp only
  rw [word_eq]
  rfl

/-- The block index of the second adapter window (the transposed B factors) at a grid point. -/
theorem indexB_eq (pf : pre0.Contents (Elt F)) (i : grid0.Coords) :
    cc0_transform_4 k0_off1_inb numel1_S1 pf i = ![(pf 0 (ix1 ⟨(i 0).val, (i 0).isLt⟩)).toNat, 0, 0] := by
  unfold cc0_transform_4
  dsimp only
  rw [word_eq]
  rfl

/-- A block (w, 0, 0) with w below 10 lies inside the stack of ten adapters. -/
theorem block_inb (w : Nat) (hw : w < 10) : ∀ a, ((![w, 0, 0] : Fin 3 → Nat) a + 1) * S1x4x1024.size a ≤ S10x4x1024.size a := by
  intro a
  fin_cases a <;> simp [S1x4x1024, S10x4x1024] <;> omega

/-- THE SIDE CONDITION, from the ids' range (what the precondition says of them). -/
theorem ok_of_range (hr : ∀ k, InRange (ids m k)) : Ok m := by
  have hl : ∀ k, (tbl m 0 k).toNat < 10 := fun k => by rw [tbl_apply m hr k]; exact toNat_lt (hr k)
  refine ⟨fun i => ?_, fun i => ?_⟩
  · refine ⟨fun a => ?_, .inr (Affine.block_words_dvd (of_decide_eq_true rfl) (by decide))⟩
    rw [indexA_eq]
    exact block_inb _ (hl _) a
  · refine ⟨fun a => ?_, .inr (Affine.block_words_dvd (of_decide_eq_true rfl) (by decide))⟩
    rw [indexB_eq]
    exact block_inb _ (hl _) a

end Cert.KernelIdeal.Adapter

end
-- ==== Proof.TileValue.lean ====
/-
  One grid point's tile of the kernel, read at an index. The body computes, from the 1024 rows of x it was handed
  (x0), the transposed weight (x1), the bias row (x2) and the row's adapter pair (x3 = A[a], x4 = B[a] transposed),

    tile[p, q] = (Σ_k x0[p, k] · x1[k, q] + x2[q]) + ¼ · Σ_r (Σ_k x0[p, k] · x3[r, k]) · x4[r, q].

  Each of the three matrix products into a zero accumulator is, at the ideal values, the plain sum over its one
  contracted axis; the casts between float formats are the identity there; the shape casts only add or drop the block's
  leading unit axis.
-/
import proofs.«404578_j89489938579611_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## x · Wᵀ: rows of x against columns of the transposed weight, contracted over the 1024 input features -/

theorem xw_lhs_0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem xw_lhs_1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem xw_rhs_0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem xw_rhs_1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem xw_apply (l : FVec Ideal S1024x1024 .bf16) (r : FVec Ideal S1024x1024 .bf16) (p q : Fin 1024) :
    matmul dot_S1024x1024_S1024x1024_S1024x1024_1_0_0_1_n_n none l r (constant (F := Ideal) S1024x1024 .f32 0x00000000#32) (ix2 p q) = ∑ k : Fin 1024, l (ix2 p k) * r (ix2 k q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact xw_lhs_0 _ _
    | ⟨1, _⟩ => exact (xw_lhs_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (xw_rhs_0 _ _).trans hk
    | ⟨1, _⟩ => exact xw_rhs_1 _ _)
  rw [el, er]

/-! ## x · Aᵀ: rows of x against the adapter's four rows, both contracted on their last axis -/

theorem xa_lhs_0 (i : S1024x4.Idx) (q : dot_S1024x1024_S4x1024_S1024x4_1_1_0_0_n_n.contr.Idx) : (dot_S1024x1024_S4x1024_S1024x4_1_1_0_0_n_n.lhsIdx i q 0).val = (i 0).val := by
  unfold DotDims.lhsIdx
  rw [dif_neg (show ¬(0 : Fin S1024x1024.rank) ∈ dot_S1024x1024_S4x1024_S1024x4_1_1_0_0_n_n.lhsBatch by decide), dif_pos (show (0 : Fin S1024x1024.rank) ∈ dot_S1024x1024_S4x1024_S1024x4_1_1_0_0_n_n.lhsNonContracting by decide)]
  rfl
theorem xa_lhs_1 (i : S1024x4.Idx) (q : dot_S1024x1024_S4x1024_S1024x4_1_1_0_0_n_n.contr.Idx) : (dot_S1024x1024_S4x1024_S1024x4_1_1_0_0_n_n.lhsIdx i q 1).val = (q ⟨0, by decide⟩).val :=
  dot_S1024x1024_S4x1024_S1024x4_1_1_0_0_n_n.lhsIdx_val_of_single rfl i q
theorem xa_rhs_0 (i : S1024x4.Idx) (q : dot_S1024x1024_S4x1024_S1024x4_1_1_0_0_n_n.contr.Idx) : (dot_S1024x1024_S4x1024_S1024x4_1_1_0_0_n_n.rhsIdx i q 0).val = (i 1).val := by
  unfold DotDims.rhsIdx
  rw [dif_neg (show ¬(0 : Fin S4x1024.rank) ∈ dot_S1024x1024_S4x1024_S1024x4_1_1_0_0_n_n.rhsBatch by decide), dif_pos (show (0 : Fin S4x1024.rank) ∈ dot_S1024x1024_S4x1024_S1024x4_1_1_0_0_n_n.rhsNonContracting by decide)]
  rfl
theorem xa_rhs_1 (i : S1024x4.Idx) (q : dot_S1024x1024_S4x1024_S1024x4_1_1_0_0_n_n.contr.Idx) : (dot_S1024x1024_S4x1024_S1024x4_1_1_0_0_n_n.rhsIdx i q 1).val = (q ⟨0, by decide⟩).val :=
  dot_S1024x1024_S4x1024_S1024x4_1_1_0_0_n_n.rhsIdx_val_of_single rfl i q

theorem xa_apply (l : FVec Ideal S1024x1024 .bf16) (r : FVec Ideal S4x1024 .bf16) (p : Fin 1024) (j : Fin 4) :
    matmul dot_S1024x1024_S4x1024_S1024x4_1_1_0_0_n_n none l r (constant (F := Ideal) S1024x4 .f32 0x00000000#32) (ix2 p j) = ∑ k : Fin 1024, l (ix2 p k) * r (ix2 j k) := by
  simp only [matmul]
  rw [Ideal.matmul_constant_zero_apply, ← Equiv.sum_comp (ValueIdx.contrEquiv1 dot_S1024x1024_S4x1024_S1024x4_1_1_0_0_n_n 1024 rfl rfl).symm]
  refine Finset.sum_congr rfl fun k _ => ?_
  have hk := ValueIdx.contrEquiv1_symm_val dot_S1024x1024_S4x1024_S1024x4_1_1_0_0_n_n 1024 rfl rfl k
  have el : dot_S1024x1024_S4x1024_S1024x4_1_1_0_0_n_n.lhsIdx (ix2 p j) ((ValueIdx.contrEquiv1 dot_S1024x1024_S4x1024_S1024x4_1_1_0_0_n_n 1024 rfl rfl).symm k) = ix2 p k := funext fun a => Fin.ext (by
    match a with
    | ⟨0, _⟩ => exact xa_lhs_0 _ _
    | ⟨1, _⟩ => exact (xa_lhs_1 _ _).trans hk)
  have er : dot_S1024x1024_S4x1024_S1024x4_1_1_0_0_n_n.rhsIdx (ix2 p j) ((ValueIdx.contrEquiv1 dot_S1024x1024_S4x1024_S1024x4_1_1_0_0_n_n 1024 rfl rfl).symm k) = ix2 j k := funext fun a => Fin.ext (by
    match a with
    | ⟨0, _⟩ => exact xa_rhs_0 _ _
    | ⟨1, _⟩ => exact (xa_rhs_1 _ _).trans hk)
  rw [el, er]

/-! ## h · Bᵀ: the four low-rank coordinates against the adapter's transposed second factor -/

theorem hb_lhs_0 (i : S1024x1024.Idx) (q : dot_S1024x4_S4x1024_S1024x1024_1_0_0_1_n_n.contr.Idx) : (dot_S1024x4_S4x1024_S1024x1024_1_0_0_1_n_n.lhsIdx i q 0).val = (i 0).val := by
  unfold DotDims.lhsIdx
  rw [dif_neg (show ¬(0 : Fin S1024x4.rank) ∈ dot_S1024x4_S4x1024_S1024x1024_1_0_0_1_n_n.lhsBatch by decide), dif_pos (show (0 : Fin S1024x4.rank) ∈ dot_S1024x4_S4x1024_S1024x1024_1_0_0_1_n_n.lhsNonContracting by decide)]
  rfl
theorem hb_lhs_1 (i : S1024x1024.Idx) (q : dot_S1024x4_S4x1024_S1024x1024_1_0_0_1_n_n.contr.Idx) : (dot_S1024x4_S4x1024_S1024x1024_1_0_0_1_n_n.lhsIdx i q 1).val = (q ⟨0, by decide⟩).val :=
  dot_S1024x4_S4x1024_S1024x1024_1_0_0_1_n_n.lhsIdx_val_of_single rfl i q
theorem hb_rhs_0 (i : S1024x1024.Idx) (q : dot_S1024x4_S4x1024_S1024x1024_1_0_0_1_n_n.contr.Idx) : (dot_S1024x4_S4x1024_S1024x1024_1_0_0_1_n_n.rhsIdx i q 0).val = (q ⟨0, by decide⟩).val :=
  dot_S1024x4_S4x1024_S1024x1024_1_0_0_1_n_n.rhsIdx_val_of_single rfl i q
theorem hb_rhs_1 (i : S1024x1024.Idx) (q : dot_S1024x4_S4x1024_S1024x1024_1_0_0_1_n_n.contr.Idx) : (dot_S1024x4_S4x1024_S1024x1024_1_0_0_1_n_n.rhsIdx i q 1).val = (i 1).val := by
  unfold DotDims.rhsIdx
  rw [dif_neg (show ¬(1 : Fin S4x1024.rank) ∈ dot_S1024x4_S4x1024_S1024x1024_1_0_0_1_n_n.rhsBatch by decide), dif_pos (show (1 : Fin S4x1024.rank) ∈ dot_S1024x4_S4x1024_S1024x1024_1_0_0_1_n_n.rhsNonContracting by decide)]
  rfl

theorem hb_apply (l : FVec Ideal S1024x4 .f32) (r : FVec Ideal S4x1024 .f32) (p q : Fin 1024) :
    matmul dot_S1024x4_S4x1024_S1024x1024_1_0_0_1_n_n (some .fp32) l r (constant (F := Ideal) S1024x1024 .f32 0x00000000#32) (ix2 p q) = ∑ j : Fin 4, l (ix2 p j) * r (ix2 j q) := by
  simp only [matmul]
  rw [Ideal.matmul_constant_zero_apply, ← Equiv.sum_comp (ValueIdx.contrEquiv1 dot_S1024x4_S4x1024_S1024x1024_1_0_0_1_n_n 4 rfl rfl).symm]
  refine Finset.sum_congr rfl fun k _ => ?_
  have hk := ValueIdx.contrEquiv1_symm_val dot_S1024x4_S4x1024_S1024x1024_1_0_0_1_n_n 4 rfl rfl k
  have el : dot_S1024x4_S4x1024_S1024x1024_1_0_0_1_n_n.lhsIdx (ix2 p q) ((ValueIdx.contrEquiv1 dot_S1024x4_S4x1024_S1024x1024_1_0_0_1_n_n 4 rfl rfl).symm k) = ix2 p k := funext fun a => Fin.ext (by
    match a with
    | ⟨0, _⟩ => exact hb_lhs_0 _ _
    | ⟨1, _⟩ => exact (hb_lhs_1 _ _).trans hk)
  have er : dot_S1024x4_S4x1024_S1024x1024_1_0_0_1_n_n.rhsIdx (ix2 p q) ((ValueIdx.contrEquiv1 dot_S1024x4_S4x1024_S1024x1024_1_0_0_1_n_n 4 rfl rfl).symm k) = ix2 k q := funext fun a => Fin.ext (by
    match a with
    | ⟨0, _⟩ => exact (hb_rhs_0 _ _).trans hk
    | ⟨1, _⟩ => exact hb_rhs_1 _ _)
  rw [el, er]

/-! ## The tile -/

/-- The body's one store, at block index (0, p, q). -/
theorem tile_apply (x0 : Vec Ideal S1x1024x1024 .f32) (x1 : Vec Ideal S1024x1024 .bf16) (x3 x4 : Vec Ideal S1x4x1024 .bf16)
    (x2 : Vec Ideal S1x1024 .f32) (u : Fin 1) (p q : Fin 1024) :
    k0_pay1 (F := Ideal) x0 x1 x3 x4 x2 (ix3 u p q)
      = ((∑ k : Fin 1024, x0 (ix3 (0 : Fin 1) p k) * x1 (ix2 k q)) + x2 (ix2 (0 : Fin 1) q))
        + Ideal.ofBits .f32 0x3E800000#32 * ∑ r : Fin 4, (∑ k : Fin 1024, x0 (ix3 (0 : Fin 1) p k) * x3 (ix3 (0 : Fin 1) r k)) * x4 (ix3 (0 : Fin 1) r q) := by
  unfold k0_pay1
  refine (shapeCast_ab_1ab_apply _ _ u p q).trans ?_
  simp only [addf_apply, mulf_apply, broadcast_apply]
  rw [xw_apply, hb_apply, broadcastTo_1b_ab_apply, shapeCast_a_1a_apply, shapeCast_1a_a_apply]
  congr 2
  · refine Finset.sum_congr rfl fun k _ => ?_
    rw [truncf_apply, shapeCast_1ab_ab_apply, shapeCast_self]
  · refine Finset.sum_congr rfl fun r _ => ?_
    rw [xa_apply, extf_apply, shapeCast_1ab_ab_apply]
    congr 1
    refine Finset.sum_congr rfl fun k _ => ?_
    rw [truncf_apply, shapeCast_1ab_ab_apply, shapeCast_1ab_ab_apply]

end Cert.KernelIdeal.Tile

end
-- ==== Proof.LoraSpec.lean ====
/-
  The layer as one function of its argument arrays, over the extended reals, index by index:

    out[b, s, o] = (Σ_k x[b, s, k] · W[o, k] + bias[o]) + ¼ · Σ_r (Σ_k x[b, s, k] · A[a_b, r, k]) · B[a_b, o, r]

  where a_b is batch row b's adapter: its subject id, a number below 10. The sums are written in the order of the factors
  both programs use (input first, weight second), so no law of the extended reals beyond reading each operation at an
  index is needed to meet either side.
-/
import Idealize.ShloMosaic.Lib.ValueIdx
import Idealize.ShloMosaic.PureOps.Ideal

noncomputable section

namespace Cert.Lora.Spec

open Idealize.ShloMosaic Idealize.ShloMosaic.ValueIdx

/-- The adapter scale α / rank = 1 / 4, as the f32 word both programs carry. -/
abbrev quarter : EReal := Ideal.ofBits .f32 0x3E800000#32

/-- Batch row b's adapter: its subject id read unsigned, capped at the last adapter (a word in [0, 10) is its own value). -/
def adapterOf (ids : (⟨1, ![32]⟩ : Shape).Idx → BitVec 32) (b : Fin 32) : Fin 10 :=
  ⟨min (ids (ix1 b)).toNat 9, by omega⟩

/-- The layer's result at every index. -/
def G (x : (⟨3, ![32, 2048, 1024]⟩ : Shape).Idx → EReal) (W : (⟨2, ![1024, 1024]⟩ : Shape).Idx → EReal)
    (bias : (⟨1, ![1024]⟩ : Shape).Idx → EReal) (A : (⟨3, ![10, 4, 1024]⟩ : Shape).Idx → EReal)
    (B : (⟨3, ![10, 1024, 4]⟩ : Shape).Idx → EReal) (a : Fin 32 → Fin 10) :
    (⟨3, ![32, 2048, 1024]⟩ : Shape).Idx → EReal :=
  fun i => ((∑ k : Fin 1024, x (ix3 (i 0) (i 1) k) * W (ix2 (i 2) k)) + bias (ix1 (i 2)))
    + quarter * ∑ r : Fin 4, (∑ k : Fin 1024, x (ix3 (i 0) (i 1) k) * A (ix3 (a (i 0)) r k)) * B (ix3 (a (i 0)) (i 2) r)

end Cert.Lora.Spec

end
-- ==== Proof.LayerValue.lean ====
/-
  What the idealized kernel's result array holds after the run: the layer's function G of the argument arrays.

  Grid point t = (b, h) — batch row b, half h of the 2048 sequence positions — is handed rows [1024 h, 1024 h + 1024) of
  x[b], the whole transposed weight, the bias row, and blocks (a_b, 0, 0) of the two adapter stacks, a_b the table's entry
  b, which under the precondition is row b's subject id. The body stores one tile (TileValue.lean); read through the
  output window's block it is G at (b, 1024 h + p, q). Every index of the result lies in exactly the block of the point
  (its batch row, its sequence position's half), and every point writes its block back, so the array ends at G.
-/
import proofs.«404578_j89489938579611_3_alg».proof.Defs
import proofs.«404578_j89489938579611_3_alg».proof.Proof.Gen.KernelIdeal.Frame
import proofs.«404578_j89489938579611_3_alg».proof.Proof.TileValue
import proofs.«404578_j89489938579611_3_alg».proof.Proof.AdapterIdeal
import proofs.«404578_j89489938579611_3_alg».proof.Proof.LoraSpec
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.Layer

open Cert.KernelIdeal Cert.KernelIdeal.Gen Cert.KernelIdeal.Adapter Cert.KernelIdeal.Tile
open Idealize.ShloMosaic Idealize.ShloMosaic.TcCoe Idealize.SL.Sem Idealize.ShloMosaic.ValueIdx
open Idealize.ShloMosaic.Pipeline (Dat)
open Cert.Lora.Words Cert.Lora.Spec

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## One point's store is the tile of its five blocks -/

/-- What the body leaves in the output's staging buffer: its one covering store's payload, whose loads read the whole
    staging buffers of the five inputs. -/
theorem tile_of_run (c : Dev nD) (i : grid0.Coords) (a3 : Memref sig .tc .vmem S1x1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1x4x1024 .bf16) (h6 : a6.IsWhole) (a7 : Memref sig .tc .vmem S1x4x1024 .bf16) (h7 : a7.IsWhole)
    (a8 : Memref sig .tc .vmem S1x1024x1024 .f32) (h8 : a8.IsWhole)
    (x0 : Vec Ideal S1x1024x1024 .f32) (x1 : Vec Ideal S1024x1024 .bf16) (x2 : Vec Ideal S1x1024 .f32) (x3 : Vec Ideal S1x4x1024 .bf16)
    (x4 : Vec Ideal S1x4x1024 .bf16) (xt0 : TbBuf0 (F := Ideal) c tbM0_0) :
    out0_A_5 c i a3 h3 a4 h4 a5 h5 a6 h6 a7 h7 a8 h8 x0 x1 x2 x3 x4 xt0 = k0_pay1 x0 x1 x3 x4 x2 := by
  unfold out0_A_5
  rw [View.read_writes_eq_canon _ _ _ (cover0_A_5 c i a3 h3 a4 h4 a5 h5 a6 h6 a7 h7 a8 h8 x0 x1 x2 x3 x4 xt0)]
  unfold kernelRun0_A
  dsimp only
  sl_unfold_words
  rw [View.canon_unit_zero hz3]
  simp only [View.readAt_eq_ld, h3.read_unread, h4.read_unread, h5.read_unread, h6.read_unread, h7.read_unread,
    View.ld_unit_zero (S := S1x1024x1024) hz3, View.ld_unit_zero (S := S1024x1024) hz2, View.ld_unit_zero (S := S1x4x1024) hz3,
    View.ld_unit_zero (S := S1x1024) hz2]

/-! ## The arrays the windows stage, as the region finds them -/

/-- The weight window's array: W transposed (the cast to bf16 is the identity at the ideal values). -/
theorem wt_eq (c : Dev nD) : (V m c main_v3 : FVec Ideal S1024x1024 .bf16)
    = truncf (F := Ideal) .bf16 (transpose S1024x1024 [1, 0] (m ((c : Thread nD τ).loc main_arg1)) transposes_S1024x1024_S1024x1024_1_0) bitsLt_bf16_f32 := by
  dsimp only [V]
  simp only [hostOps0, hostOps0_1, hostOps0_2, List.flatten_cons, List.flatten_nil, List.append_nil, List.cons_append,
    List.nil_append]
  after_results

/-- The bias window's array: the bias as one row. -/
theorem biasrow_eq (c : Dev nD) : (V m c main_v1 : FVec Ideal S1x1024 .f32)
    = shapeCast S1x1024 (m ((c : Thread nD τ).loc main_arg2)) shapeCasts_S1024_S1x1024 := by
  dsimp only [V]
  simp only [hostOps0, hostOps0_1, hostOps0_2, List.flatten_cons, List.flatten_nil, List.append_nil, List.cons_append,
    List.nil_append]
  after_results
  rfl

/-- The first adapter window's array: the stack of A factors. -/
theorem astack_eq (c : Dev nD) : (V m c main_v4 : FVec Ideal S10x4x1024 .bf16)
    = truncf (F := Ideal) .bf16 (m ((c : Thread nD τ).loc main_arg3)) bitsLt_bf16_f32 := by
  dsimp only [V]
  simp only [hostOps0, hostOps0_1, hostOps0_2, List.flatten_cons, List.flatten_nil, List.append_nil, List.cons_append,
    List.nil_append]
  after_results

/-- The second adapter window's array: the stack of B factors, each transposed. -/
theorem bstack_eq (c : Dev nD) : (V m c main_v6 : FVec Ideal S10x4x1024 .bf16)
    = truncf (F := Ideal) .bf16 (transpose S10x4x1024 [0, 2, 1] (m ((c : Thread nD τ).loc main_arg4)) transposes_S10x1024x4_S10x4x1024_0_2_1) bitsLt_bf16_f32 := by
  dsimp only [V]
  simp only [hostOps0, hostOps0_1, hostOps0_2, List.flatten_cons, List.flatten_nil, List.append_nil, List.cons_append,
    List.nil_append]
  after_results

/-! ## The index maps that read no table -/

/-- The x window and the output window sit at block (b, h, 0) at grid point (b, h). -/
theorem idx_x : ∀ i : grid0.Coords, cc0_transform_0 i = ![(i 0).val, (i 1).val, 0] := by decide +kernel
theorem idx_o : ∀ i : grid0.Coords, cc0_transform_5 i = ![(i 0).val, (i 1).val, 0] := by decide +kernel
/-- Every (batch row, half) is some grid point's output block. -/
theorem idx_onto : ∀ (q0 : Fin 32) (q1 : Fin 2), ∃ t : Fin grid0.N, cc0_transform_5 (grid0.coords t) = ![q0.val, q1.val, 0] := by
  decide +kernel

variable (hO : Ok m)

/-! ## The five blocks a point is handed, at literal shapes -/

abbrev blkX (c : Dev nD) (t : Fin (cfgM m hO).N) : Vec Ideal S1x1024x1024 .f32 := iblk m hO c 0 t
abbrev blkW (c : Dev nD) (t : Fin (cfgM m hO).N) : Vec Ideal S1024x1024 .bf16 := iblk m hO c 1 t
abbrev blkBias (c : Dev nD) (t : Fin (cfgM m hO).N) : Vec Ideal S1x1024 .f32 := iblk m hO c 2 t
abbrev blkA (c : Dev nD) (t : Fin (cfgM m hO).N) : Vec Ideal S1x4x1024 .bf16 := iblk m hO c 3 t
abbrev blkB (c : Dev nD) (t : Fin (cfgM m hO).N) : Vec Ideal S1x4x1024 .bf16 := iblk m hO c 4 t

/-- x's block at point (b, h), at (·, p, k), is x at (b, 1024 h + p, k). -/
theorem blkX_apply (c : Dev nD) (t : Fin (cfgM m hO).N) (u : Fin 1) (p k : Fin 1024) (j : S32x2048x1024.Idx)
    (h0 : (j 0).val = (grid0.coords t 0).val) (h1 : (j 1).val = (grid0.coords t 1).val * 1024 + p.val) (h2 : (j 2).val = k.val) :
    blkX m hO c t (ix3 u p k) = m ((c : Thread nD τ).loc main_arg0) j := by
  show V m c main_arg0 ((((cfgM m hO).win 0).blk t).view.emb (ix3 u p k)) = _
  rw [V_main_arg0]
  congr 1
  funext a
  apply Fin.ext
  have e := idx_x (grid0.coords t)
  have hu : u.val = 0 := by omega
  match a with
  | ⟨0, _⟩ =>
    show ((cfgM m hO).win 0).index t (0 : Fin 3) * 1 + 1 * u.val = (j 0).val
    have e0 : ((cfgM m hO).win 0).index t (0 : Fin 3) = (grid0.coords t 0).val := by
      show cc0_transform_0 (grid0.coords t) 0 = _; rw [e]; rfl
    omega
  | ⟨1, _⟩ =>
    show ((cfgM m hO).win 0).index t (1 : Fin 3) * 1024 + 1 * p.val = (j 1).val
    have e1 : ((cfgM m hO).win 0).index t (1 : Fin 3) = (grid0.coords t 1).val := by
      show cc0_transform_0 (grid0.coords t) 1 = _; rw [e]; rfl
    omega
  | ⟨2, _⟩ =>
    show ((cfgM m hO).win 0).index t (2 : Fin 3) * 1024 + 1 * k.val = (j 2).val
    have e2 : ((cfgM m hO).win 0).index t (2 : Fin 3) = 0 := by
      show cc0_transform_0 (grid0.coords t) 2 = _; rw [e]; rfl
    omega

/-- The weight block is the whole transposed weight: at (k, q) it is W at (q, k). -/
theorem blkW_apply (c : Dev nD) (t : Fin (cfgM m hO).N) (k q : Fin 1024) :
    blkW m hO c t (ix2 k q) = m ((c : Thread nD τ).loc main_arg1) (ix2 q k) := by
  show V m c main_v3 ((((cfgM m hO).win 1).blk t).view.emb (ix2 k q)) = _
  rw [wt_eq]
  have he : (((cfgM m hO).win 1).blk t).view.emb (ix2 k q) = ix2 k q := by
    funext a
    apply Fin.ext
    match a with
    | ⟨0, _⟩ =>
      show ((cfgM m hO).win 1).index t (0 : Fin 2) * 1024 + 1 * k.val = k.val
      have e0 : ((cfgM m hO).win 1).index t (0 : Fin 2) = 0 := rfl
      omega
    | ⟨1, _⟩ =>
      show ((cfgM m hO).win 1).index t (1 : Fin 2) * 1024 + 1 * q.val = q.val
      have e1 : ((cfgM m hO).win 1).index t (1 : Fin 2) = 0 := rfl
      omega
  rw [he, truncf_apply, transpose_ix2_apply]

/-- The bias block is the whole bias row. -/
theorem blkBias_apply (c : Dev nD) (t : Fin (cfgM m hO).N) (u : Fin 1) (q : Fin 1024) :
    blkBias m hO c t (ix2 u q) = m ((c : Thread nD τ).loc main_arg2) (ix1 q) := by
  show V m c main_v1 ((((cfgM m hO).win 2).blk t).view.emb (ix2 u q)) = _
  rw [biasrow_eq]
  have hu : u.val = 0 := by omega
  have he : (((cfgM m hO).win 2).blk t).view.emb (ix2 u q) = ix2 u q := by
    funext a
    apply Fin.ext
    match a with
    | ⟨0, _⟩ =>
      show ((cfgM m hO).win 2).index t (0 : Fin 2) * 1 + 1 * u.val = u.val
      have e0 : ((cfgM m hO).win 2).index t (0 : Fin 2) = 0 := rfl
      omega
    | ⟨1, _⟩ =>
      show ((cfgM m hO).win 2).index t (1 : Fin 2) * 1024 + 1 * q.val = q.val
      have e1 : ((cfgM m hO).win 2).index t (1 : Fin 2) = 0 := rfl
      omega
  rw [he, shapeCast_a_1a_apply]

/-- The table's entry for point t's batch row, as a number: the row's subject id. -/
theorem entry_eq (hr : ∀ k, InRange (ids m k)) (t : Fin (cfgM m hO).N) :
    (tbl m 0 (ix1 ⟨(grid0.coords t 0).val, (grid0.coords t 0).isLt⟩)).toNat
      = (adapterOf (ids m) ⟨(grid0.coords t 0).val, (grid0.coords t 0).isLt⟩).val := by
  rw [tbl_apply m hr]
  show _ = min (ids m (ix1 _)).toNat 9
  have := toNat_lt (hr (ix1 ⟨(grid0.coords t 0).val, (grid0.coords t 0).isLt⟩))
  omega

/-- The A block at point (b, h) is adapter a_b's A: at (·, r, k) it is A at (a_b, r, k). -/
theorem blkA_apply (hr : ∀ k, InRange (ids m k)) (c : Dev nD) (t : Fin (cfgM m hO).N) (u : Fin 1) (r : Fin 4) (k : Fin 1024) :
    blkA m hO c t (ix3 u r k)
      = m ((c : Thread nD τ).loc main_arg3) (ix3 (adapterOf (ids m) ⟨(grid0.coords t 0).val, (grid0.coords t 0).isLt⟩) r k) := by
  show V m c main_v4 ((((cfgM m hO).win 3).blk t).view.emb (ix3 u r k)) = _
  rw [astack_eq]
  have hu : u.val = 0 := by omega
  have e : ((cfgM m hO).win 3).index t = ![(tbl m 0 (ix1 ⟨(grid0.coords t 0).val, (grid0.coords t 0).isLt⟩)).toNat, 0, 0] :=
    indexA_eq (tbl m) (grid0.coords t)
  have he : (((cfgM m hO).win 3).blk t).view.emb (ix3 u r k)
      = ix3 (adapterOf (ids m) ⟨(grid0.coords t 0).val, (grid0.coords t 0).isLt⟩) r k := by
    funext a
    apply Fin.ext
    match a with
    | ⟨0, _⟩ =>
      show ((cfgM m hO).win 3).index t (0 : Fin 3) * 1 + 1 * u.val = _
      rw [e, ← entry_eq m hO hr t]
      show (tbl m 0 _).toNat * 1 + 1 * u.val = (tbl m 0 _).toNat
      omega
    | ⟨1, _⟩ =>
      show ((cfgM m hO).win 3).index t (1 : Fin 3) * 4 + 1 * r.val = r.val
      rw [e]
      show 0 * 4 + 1 * r.val = r.val
      omega
    | ⟨2, _⟩ =>
      show ((cfgM m hO).win 3).index t (2 : Fin 3) * 1024 + 1 * k.val = k.val
      rw [e]
      show 0 * 1024 + 1 * k.val = k.val
      omega
  rw [he, truncf_apply]

/-- The B block at point (b, h) is adapter a_b's B transposed: at (·, r, q) it is B at (a_b, q, r). -/
theorem blkB_apply (hr : ∀ k, InRange (ids m k)) (c : Dev nD) (t : Fin (cfgM m hO).N) (u : Fin 1) (r : Fin 4) (q : Fin 1024) :
    blkB m hO c t (ix3 u r q)
      = m ((c : Thread nD τ).loc main_arg4) (ix3 (adapterOf (ids m) ⟨(grid0.coords t 0).val, (grid0.coords t 0).isLt⟩) q r) := by
  show V m c main_v6 ((((cfgM m hO).win 4).blk t).view.emb (ix3 u r q)) = _
  rw [bstack_eq]
  have hu : u.val = 0 := by omega
  have e : ((cfgM m hO).win 4).index t = ![(tbl m 0 (ix1 ⟨(grid0.coords t 0).val, (grid0.coords t 0).isLt⟩)).toNat, 0, 0] :=
    indexB_eq (tbl m) (grid0.coords t)
  have he : (((cfgM m hO).win 4).blk t).view.emb (ix3 u r q)
      = ix3 (adapterOf (ids m) ⟨(grid0.coords t 0).val, (grid0.coords t 0).isLt⟩) r q := by
    funext a
    apply Fin.ext
    match a with
    | ⟨0, _⟩ =>
      show ((cfgM m hO).win 4).index t (0 : Fin 3) * 1 + 1 * u.val = _
      rw [e, ← entry_eq m hO hr t]
      show (tbl m 0 _).toNat * 1 + 1 * u.val = (tbl m 0 _).toNat
      omega
    | ⟨1, _⟩ =>
      show ((cfgM m hO).win 4).index t (1 : Fin 3) * 4 + 1 * r.val = r.val
      rw [e]
      show 0 * 4 + 1 * r.val = r.val
      omega
    | ⟨2, _⟩ =>
      show ((cfgM m hO).win 4).index t (2 : Fin 3) * 1024 + 1 * q.val = q.val
      rw [e]
      show 0 * 1024 + 1 * q.val = q.val
      omega
  rw [he, truncf_apply, transpose_ix3_021_apply]

/-! ## What a point writes back is a block of G -/

/-- The layer's result, as contents of the result array on core c. -/
abbrev result (c : Dev nD) : Buf (Elt Ideal) ((c : Thread nD τ).loc main_v7) :=
  G (m ((c : Thread nD τ).loc main_arg0)) (m ((c : Thread nD τ).loc main_arg1)) (m ((c : Thread nD τ).loc main_arg2))
    (m ((c : Thread nD τ).loc main_arg3)) (m ((c : Thread nD τ).loc main_arg4)) (adapterOf (m ((c : Thread nD τ).loc main_arg5)))

/-- The tile of point (b, h) at (·, p, q) is G at any index whose coordinates are (b, 1024 h + p, q): the five block
    reads put the argument arrays in the tile's sums, which are then G's. -/
theorem tile_is_G (hr : ∀ k, InRange (ids m k)) (t : Fin (cfgM m hO).N) (u : Fin 1) (p q : Fin 1024) (j : S32x2048x1024.Idx)
    (h0 : (j 0).val = (grid0.coords t 0).val) (h1 : (j 1).val = (grid0.coords t 1).val * 1024 + p.val) (h2 : (j 2).val = q.val) :
    k0_pay1 (F := Ideal) (blkX m hO 0 t) (blkW m hO 0 t) (blkA m hO 0 t) (blkB m hO 0 t) (blkBias m hO 0 t) (ix3 u p q)
      = result m 0 j := by
  refine (tile_apply (blkX m hO 0 t) (blkW m hO 0 t) (blkA m hO 0 t) (blkB m hO 0 t) (blkBias m hO 0 t) u p q).trans ?_
  obtain ⟨jb, js, jo, rfl⟩ : ∃ (jb : Fin 32) (js : Fin 2048) (jo : Fin 1024), j = ix3 jb js jo := ⟨j 0, j 1, j 2, eq_ix3 j⟩
  have hjo : jo = q := Fin.ext h2
  have hjb : jb = ⟨(grid0.coords t 0).val, (grid0.coords t 0).isLt⟩ := Fin.ext h0
  have hx : ∀ k : Fin 1024, blkX m hO 0 t (ix3 (0 : Fin 1) p k) = m (((0 : Dev nD) : Thread nD τ).loc main_arg0) (ix3 jb js k) :=
    fun k => blkX_apply m hO 0 t 0 p k (ix3 jb js k) h0 h1 rfl
  have hw : ∀ k : Fin 1024, blkW m hO 0 t (ix2 k q) = m (((0 : Dev nD) : Thread nD τ).loc main_arg1) (ix2 q k) :=
    fun k => blkW_apply m hO 0 t k q
  have hbias : blkBias m hO 0 t (ix2 (0 : Fin 1) q) = m (((0 : Dev nD) : Thread nD τ).loc main_arg2) (ix1 q) :=
    blkBias_apply m hO 0 t 0 q
  have ha : ∀ (r : Fin 4) (k : Fin 1024), blkA m hO 0 t (ix3 (0 : Fin 1) r k)
      = m (((0 : Dev nD) : Thread nD τ).loc main_arg3) (ix3 (adapterOf (ids m) jb) r k) :=
    fun r k => by rw [hjb]; exact blkA_apply m hO hr 0 t 0 r k
  have hbt : ∀ r : Fin 4, blkB m hO 0 t (ix3 (0 : Fin 1) r q)
      = m (((0 : Dev nD) : Thread nD τ).loc main_arg4) (ix3 (adapterOf (ids m) jb) q r) :=
    fun r => by rw [hjb]; exact blkB_apply m hO hr 0 t 0 r q
  simp only [hx, hw, hbias, ha, hbt]
  rw [hjo]
  rfl

/-- What the output's staging buffer holds after point t: the tile of the point's five blocks. -/
theorem outsAt_eq (c : Dev nD) (t : Fin (cfgM m hO).N) :
    outsAt0 m hO c t = k0_pay1 (F := Ideal) (blkX m hO c t) (blkW m hO c t) (blkA m hO c t) (blkB m hO c t) (blkBias m hO c t) :=
  tile_of_run c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t)
    (iblk m hO c 0 t) (iblk m hO c 1 t) (iblk m hO c 2 t) (iblk m hO c 3 t) (iblk m hO c 4 t) (tbl m 0)

/-- WHAT POINT t WRITES BACK is block t of the layer's result. -/
theorem flushed_eq (hr : ∀ k, InRange (ids m k)) (c : Dev nD) (t : Fin (cfgM m hO).N) :
    (dats m hO 0 c).flushed 5 t = (((cfgM m hO).win 5).blk t).view.read (Elt Ideal) (result m c) := by
  obtain rfl : c = 0 := Subsingleton.elim _ _
  show ((cfgM m hO).win 5).cut (grid0.coords t) ((dats m hO 0 0).after 5 t) = _
  refine funext fun (y : S1x1024x1024.Idx) => ?_
  obtain ⟨u, p, q, rfl⟩ : ∃ (u : Fin 1) (p q : Fin 1024), y = ix3 u p q :=
    ⟨y 0, y 1, y 2, eq_ix3 (n0 := 1) (n1 := 1024) (n2 := 1024) y⟩
  have e := idx_o (grid0.coords t)
  have hu : u.val = 0 := by omega
  refine (congrFun (after0_5 m hO 0 t) _).trans ?_
  refine (congrFun (outsAt_eq m hO 0 t) _).trans ?_
  refine tile_is_G m hO hr t u p q ((((cfgM m hO).win 5).blk t).view.emb (ix3 u p q)) ?_ ?_ ?_
  · show ((cfgM m hO).win 5).index t (0 : Fin 3) * 1 + 1 * u.val = _
    have e0 : ((cfgM m hO).win 5).index t (0 : Fin 3) = (grid0.coords t 0).val := by
      show cc0_transform_5 (grid0.coords t) 0 = _; rw [e]; rfl
    omega
  · show ((cfgM m hO).win 5).index t (1 : Fin 3) * 1024 + 1 * p.val = _
    have e1 : ((cfgM m hO).win 5).index t (1 : Fin 3) = (grid0.coords t 1).val := by
      show cc0_transform_5 (grid0.coords t) 1 = _; rw [e]; rfl
    omega
  · show ((cfgM m hO).win 5).index t (2 : Fin 3) * 1024 + 1 * q.val = _
    have e2 : ((cfgM m hO).win 5).index t (2 : Fin 3) = 0 := by
      show cc0_transform_5 (grid0.coords t) 2 = _; rw [e]; rfl
    omega

/-! ## The blocks fill the array -/

/-- THE ARRAY after the run: index (b, s, o) is element (0, s mod 1024, o) of the block of point (b, s / 1024), and every
    point writes its block back. -/
theorem final (hr : ∀ k, InRange (ids m k)) (c : Dev nD) : (dats m hO 0 c).arrAt 5 (cfgM m hO).N = result m c :=
  (dats m hO 0 c).arrAt_eq_of_cover 5 (result m c) (fun t _ => flushed_eq m hO hr c t) fun (i : S32x2048x1024.Idx) => by
    have hi0 : (i 0).val < 32 := (i 0).isLt
    have hi1 : (i 1).val < 2048 := (i 1).isLt
    have hi2 : (i 2).val < 1024 := (i 2).isLt
    obtain ⟨t, ht⟩ := idx_onto ⟨(i 0).val, hi0⟩ ⟨(i 1).val / 1024, by omega⟩
    have q0 : ((cfgM m hO).win 5).index t (0 : Fin 3) = (i 0).val := congrFun ht 0
    have q1 : ((cfgM m hO).win 5).index t (1 : Fin 3) = (i 1).val / 1024 := congrFun ht 1
    have q2 : ((cfgM m hO).win 5).index t (2 : Fin 3) = 0 := congrFun ht 2
    refine ⟨t, flush0_5 (adm m hO) t, ?_⟩
    have hy : (((cfgM m hO).win 5).blk t).view.emb (ix3 (0 : Fin 1) ⟨(i 1).val % 1024, Nat.mod_lt _ (by decide)⟩ ⟨(i 2).val, hi2⟩) = i := by
      funext a
      apply Fin.ext
      match a with
      | ⟨0, _⟩ =>
        show ((cfgM m hO).win 5).index t (0 : Fin 3) * 1 + 1 * 0 = (i 0).val
        omega
      | ⟨1, _⟩ =>
        show ((cfgM m hO).win 5).index t (1 : Fin 3) * 1024 + 1 * ((i 1).val % 1024) = (i 1).val
        omega
      | ⟨2, _⟩ =>
        show ((cfgM m hO).win 5).index t (2 : Fin 3) * 1024 + 1 * (i 2).val = (i 2).val
        omega
    have hmem := (((cfgM m hO).win 5).blk t).view.emb_mem_set (ix3 (0 : Fin 1) ⟨(i 1).val % 1024, Nat.mod_lt _ (by decide)⟩ ⟨(i 2).val, hi2⟩)
    rw [hy] at hmem
    exact hmem

/-! ## The run, read -/

/-- Every weakly fair execution of the idealized kernel ends with the result array at G of the arguments and the
    argument arrays as launched. -/
theorem run (hO : Ok m) (hr : ∀ k, InRange (ids m k)) : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 5).trans (final m hO hr c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hO)

end Cert.KernelIdeal.Layer

end
-- ==== Proof.RefValue.lean ====
/-
  The reference, read at an index. jnp's `lora_A[subject_id]` lowers to numpy's index normalisation (add 10 where the id
  is negative) followed by a gather whose start index StableHLO clamps into [0, 9]; on an id that already reads in
  [0, 10) both leave it alone, so row b of the gathered stack is the id's own adapter. The three contractions are sums
  over their one contracted axis (the generated read-at-an-index lemmas), and the whole term is the layer's function G
  of the argument arrays.
-/
import proofs.«404578_j89489938579611_3_alg».proof.Defs
import proofs.«404578_j89489938579611_3_alg».proof.Proof.Gen.ReferenceIdeal.Run
import proofs.«404578_j89489938579611_3_alg».proof.Proof.Gen.ReferenceIdeal.Read
import proofs.«404578_j89489938579611_3_alg».proof.Proof.Words
import proofs.«404578_j89489938579611_3_alg».proof.Proof.LoraSpec

noncomputable section

namespace Cert.ReferenceIdeal.RefValue

open Cert.ReferenceIdeal Cert.ReferenceIdeal.Gen Cert.ReferenceIdeal.Read
open Idealize.ShloMosaic Idealize.ShloMosaic.ValueIdx Cert.Lora.Words Cert.Lora.Spec

/-! ## The two gathers -/

/-- A rank-3 index read at the entry of a list of axes whose position is known. -/
theorem coord_at {n0 n1 n2 : Nat} (j : (⟨3, ![n0, n1, n2]⟩ : Shape).Idx) (l : List (Fin 3)) (n k : Nat)
    (h : n < l.length) (hn : n = k) (hk : k < l.length) : (j (l[n]'h)).val = (j (l[k]'hk)).val := by
  subst hn; rfl

/-- Row b of the gathered A stack is adapter (start index b, clamped)'s matrix: the gather collapses the adapter axis and keeps the other two as offsets. -/
theorem gatherA_apply (x : S10x4x1024.Idx → EReal) (idx : IVec S32x1 32) (b : Fin 32) (p : Fin 4) (q : Fin 1024) :
    Host.gather gather_S10x4x1024_S32x1_S32x4x1024_12_0_n_n_0_1_141024 x idx (ix3 b p q)
      = x (ix3 ⟨min (idx (ix2 b (0 : Fin 1))).toInt.toNat (10 - 1), by omega⟩ p q) := by
  unfold Host.gather
  congr 1
  funext a
  apply Fin.ext
  have hb : ∀ a : Fin 3, a ∉ gather_S10x4x1024_S32x1_S32x4x1024_12_0_n_n_0_1_141024.operandBatchingDims := fun a => List.not_mem_nil
  match a with
  | ⟨0, _⟩ =>
    have hk : (0 : Fin 3) ∉ gather_S10x4x1024_S32x1_S32x4x1024_12_0_n_n_0_1_141024.sKept := by decide
    have hm : (0 : Fin 3) ∈ gather_S10x4x1024_S32x1_S32x4x1024_12_0_n_n_0_1_141024.startIndexMap := by decide
    show gather_S10x4x1024_S32x1_S32x4x1024_12_0_n_n_0_1_141024.start (ix3 b p q) idx 0 + gather_S10x4x1024_S32x1_S32x4x1024_12_0_n_n_0_1_141024.batchCoord (ix3 b p q) 0 + gather_S10x4x1024_S32x1_S32x4x1024_12_0_n_n_0_1_141024.offCoord (ix3 b p q) 0 = _
    rw [GatherDims.batchCoord_eq_zero _ _ _ (hb 0), GatherDims.offCoord_eq_zero _ _ _ hk]
    unfold GatherDims.start
    rw [dif_pos hm]
    have hsi : gather_S10x4x1024_S32x1_S32x4x1024_12_0_n_n_0_1_141024.siIdx (ix3 b p q) ⟨List.idxOf (0 : Fin 3) gather_S10x4x1024_S32x1_S32x4x1024_12_0_n_n_0_1_141024.startIndexMap, List.idxOf_lt_length_iff.2 hm⟩ = ix2 b (0 : Fin 1) := by
      funext c
      apply Fin.ext
      match c with
      | ⟨0, _⟩ => rfl
      | ⟨1, _⟩ => rfl
    rw [hsi]
    rfl
  | ⟨1, _⟩ =>
    have hm : (1 : Fin 3) ∉ gather_S10x4x1024_S32x1_S32x4x1024_12_0_n_n_0_1_141024.startIndexMap := by decide
    have hk : (1 : Fin 3) ∈ gather_S10x4x1024_S32x1_S32x4x1024_12_0_n_n_0_1_141024.sKept := by decide
    show gather_S10x4x1024_S32x1_S32x4x1024_12_0_n_n_0_1_141024.start (ix3 b p q) idx 1 + gather_S10x4x1024_S32x1_S32x4x1024_12_0_n_n_0_1_141024.batchCoord (ix3 b p q) 1 + gather_S10x4x1024_S32x1_S32x4x1024_12_0_n_n_0_1_141024.offCoord (ix3 b p q) 1 = p.val
    rw [GatherDims.batchCoord_eq_zero _ _ _ (hb 1)]
    unfold GatherDims.start GatherDims.offCoord
    rw [dif_neg hm, dif_pos hk]
    simp only [Nat.zero_add]
    exact (coord_at (ix3 b p q) _ _ 0 _ (by decide) (by decide)).trans rfl
  | ⟨2, _⟩ =>
    have hm : (2 : Fin 3) ∉ gather_S10x4x1024_S32x1_S32x4x1024_12_0_n_n_0_1_141024.startIndexMap := by decide
    have hk : (2 : Fin 3) ∈ gather_S10x4x1024_S32x1_S32x4x1024_12_0_n_n_0_1_141024.sKept := by decide
    show gather_S10x4x1024_S32x1_S32x4x1024_12_0_n_n_0_1_141024.start (ix3 b p q) idx 2 + gather_S10x4x1024_S32x1_S32x4x1024_12_0_n_n_0_1_141024.batchCoord (ix3 b p q) 2 + gather_S10x4x1024_S32x1_S32x4x1024_12_0_n_n_0_1_141024.offCoord (ix3 b p q) 2 = q.val
    rw [GatherDims.batchCoord_eq_zero _ _ _ (hb 2)]
    unfold GatherDims.start GatherDims.offCoord
    rw [dif_neg hm, dif_pos hk]
    simp only [Nat.zero_add]
    exact (coord_at (ix3 b p q) _ _ 1 _ (by decide) (by decide)).trans rfl

/-- The same for the B stack. -/
theorem gatherB_apply (x : S10x1024x4.Idx → EReal) (idx : IVec S32x1 32) (b : Fin 32) (p : Fin 1024) (q : Fin 4) :
    Host.gather gather_S10x1024x4_S32x1_S32x1024x4_12_0_n_n_0_1_110244 x idx (ix3 b p q)
      = x (ix3 ⟨min (idx (ix2 b (0 : Fin 1))).toInt.toNat (10 - 1), by omega⟩ p q) := by
  unfold Host.gather
  congr 1
  funext a
  apply Fin.ext
  have hb : ∀ a : Fin 3, a ∉ gather_S10x1024x4_S32x1_S32x1024x4_12_0_n_n_0_1_110244.operandBatchingDims := fun a => List.not_mem_nil
  match a with
  | ⟨0, _⟩ =>
    have hk : (0 : Fin 3) ∉ gather_S10x1024x4_S32x1_S32x1024x4_12_0_n_n_0_1_110244.sKept := by decide
    have hm : (0 : Fin 3) ∈ gather_S10x1024x4_S32x1_S32x1024x4_12_0_n_n_0_1_110244.startIndexMap := by decide
    show gather_S10x1024x4_S32x1_S32x1024x4_12_0_n_n_0_1_110244.start (ix3 b p q) idx 0 + gather_S10x1024x4_S32x1_S32x1024x4_12_0_n_n_0_1_110244.batchCoord (ix3 b p q) 0 + gather_S10x1024x4_S32x1_S32x1024x4_12_0_n_n_0_1_110244.offCoord (ix3 b p q) 0 = _
    rw [GatherDims.batchCoord_eq_zero _ _ _ (hb 0), GatherDims.offCoord_eq_zero _ _ _ hk]
    unfold GatherDims.start
    rw [dif_pos hm]
    have hsi : gather_S10x1024x4_S32x1_S32x1024x4_12_0_n_n_0_1_110244.siIdx (ix3 b p q) ⟨List.idxOf (0 : Fin 3) gather_S10x1024x4_S32x1_S32x1024x4_12_0_n_n_0_1_110244.startIndexMap, List.idxOf_lt_length_iff.2 hm⟩ = ix2 b (0 : Fin 1) := by
      funext c
      apply Fin.ext
      match c with
      | ⟨0, _⟩ => rfl
      | ⟨1, _⟩ => rfl
    rw [hsi]
    rfl
  | ⟨1, _⟩ =>
    have hm : (1 : Fin 3) ∉ gather_S10x1024x4_S32x1_S32x1024x4_12_0_n_n_0_1_110244.startIndexMap := by decide
    have hk : (1 : Fin 3) ∈ gather_S10x1024x4_S32x1_S32x1024x4_12_0_n_n_0_1_110244.sKept := by decide
    show gather_S10x1024x4_S32x1_S32x1024x4_12_0_n_n_0_1_110244.start (ix3 b p q) idx 1 + gather_S10x1024x4_S32x1_S32x1024x4_12_0_n_n_0_1_110244.batchCoord (ix3 b p q) 1 + gather_S10x1024x4_S32x1_S32x1024x4_12_0_n_n_0_1_110244.offCoord (ix3 b p q) 1 = p.val
    rw [GatherDims.batchCoord_eq_zero _ _ _ (hb 1)]
    unfold GatherDims.start GatherDims.offCoord
    rw [dif_neg hm, dif_pos hk]
    simp only [Nat.zero_add]
    exact (coord_at (ix3 b p q) _ _ 0 _ (by decide) (by decide)).trans rfl
  | ⟨2, _⟩ =>
    have hm : (2 : Fin 3) ∉ gather_S10x1024x4_S32x1_S32x1024x4_12_0_n_n_0_1_110244.startIndexMap := by decide
    have hk : (2 : Fin 3) ∈ gather_S10x1024x4_S32x1_S32x1024x4_12_0_n_n_0_1_110244.sKept := by decide
    show gather_S10x1024x4_S32x1_S32x1024x4_12_0_n_n_0_1_110244.start (ix3 b p q) idx 2 + gather_S10x1024x4_S32x1_S32x1024x4_12_0_n_n_0_1_110244.batchCoord (ix3 b p q) 2 + gather_S10x1024x4_S32x1_S32x1024x4_12_0_n_n_0_1_110244.offCoord (ix3 b p q) 2 = q.val
    rw [GatherDims.batchCoord_eq_zero _ _ _ (hb 2)]
    unfold GatherDims.start GatherDims.offCoord
    rw [dif_neg hm, dif_pos hk]
    simp only [Nat.zero_add]
    exact (coord_at (ix3 b p q) _ _ 1 _ (by decide) (by decide)).trans rfl

/-! ## The start indices -/

/-- The first gather's start index for batch row b: the id itself, when it is in range. -/
theorem startA_eq (x5 : IVec S32 32) (hr : ∀ k, InRange (x5 k)) (b : Fin 32) :
    val_main_v9 (F := Ideal) x5 (ix2 b (0 : Fin 1)) = x5 (ix1 b) := by
  rw [val_main_v9_apply, val_main_v8_apply, val_main_v5_apply, val_main_v7_apply, val_main_v4_apply, val_main_v6_apply,
    val_main_c_apply, val_main_c_0_apply]
  have e : idx_main_v9 (ix2 b (0 : Fin 1)) = ix1 b := funext fun a => match a with | ⟨0, _⟩ => rfl
  rw [e]
  exact wrap_eq (hr _)

/-- The second gather's, likewise. -/
theorem startB_eq (x5 : IVec S32 32) (hr : ∀ k, InRange (x5 k)) (b : Fin 32) :
    val_main_v16 (F := Ideal) x5 (ix2 b (0 : Fin 1)) = x5 (ix1 b) := by
  rw [val_main_v16_apply, val_main_v15_apply, val_main_v12_apply, val_main_v14_apply, val_main_v11_apply, val_main_v13_apply,
    val_main_c_1_apply, val_main_c_2_apply]
  have e : idx_main_v16 (ix2 b (0 : Fin 1)) = ix1 b := funext fun a => match a with | ⟨0, _⟩ => rfl
  rw [e]
  exact wrap_eq (hr _)

/-- A clamped in-range id is the adapter the specification names. -/
theorem adapter_eq (x5 : IVec S32 32) (hr : ∀ k, InRange (x5 k)) (b : Fin 32) (h : min (x5 (ix1 b)).toInt.toNat (10 - 1) < 10) :
    (⟨min (x5 (ix1 b)).toInt.toNat (10 - 1), h⟩ : Fin 10) = adapterOf x5 b := by
  apply Fin.ext
  show min (x5 (ix1 b)).toInt.toNat (10 - 1) = min (x5 (ix1 b)).toNat 9
  rw [clampNat_eq (hr _)]
  have := toNat_lt (hr (ix1 b))
  omega

/-- Row b of the gathered A stack is its adapter's A. -/
theorem rowsA_apply (x3 : S10x4x1024.Idx → EReal) (x5 : IVec S32 32) (hr : ∀ k, InRange (x5 k)) (b : Fin 32) (r : Fin 4) (k : Fin 1024) :
    val_main_v10 (F := Ideal) x3 x5 (ix3 b r k) = x3 (ix3 (adapterOf x5 b) r k) := by
  unfold val_main_v10
  rw [gatherA_apply]
  simp only [startA_eq x5 hr b]
  rw [adapter_eq x5 hr b]

/-- Row b of the gathered B stack is its adapter's B. -/
theorem rowsB_apply (x4 : S10x1024x4.Idx → EReal) (x5 : IVec S32 32) (hr : ∀ k, InRange (x5 k)) (b : Fin 32) (o : Fin 1024) (r : Fin 4) :
    val_main_v17 (F := Ideal) x4 x5 (ix3 b o r) = x4 (ix3 (adapterOf x5 b) o r) := by
  unfold val_main_v17
  rw [gatherB_apply]
  simp only [startB_eq x5 hr b]
  rw [adapter_eq x5 hr b]

/-! ## The reference is G -/

/-- The low-rank coordinates h[b, s, r] = Σ_k x[b, s, k] · A[a_b, r, k]. -/
theorem lowrank_apply (x0 : S32x2048x1024.Idx → EReal) (x3 : S10x4x1024.Idx → EReal) (x5 : IVec S32 32) (hr : ∀ k, InRange (x5 k))
    (b : Fin 32) (s : Fin 2048) (r : Fin 4) :
    val_main_v18 (F := Ideal) x0 x3 x5 (ix3 b s r) = ∑ k : Fin 1024, x0 (ix3 b s k) * x3 (ix3 (adapterOf x5 b) r k) := by
  rw [val_main_v18_apply]
  refine Finset.sum_congr rfl fun k _ => ?_
  have el : lidx_main_v18 (ix3 b s r) k = ix3 b s k := funext fun a => match a with | ⟨0, _⟩ => rfl | ⟨1, _⟩ => rfl | ⟨2, _⟩ => rfl
  have er : ridx_main_v18 (ix3 b s r) k = ix3 b r k := funext fun a => match a with | ⟨0, _⟩ => rfl | ⟨1, _⟩ => rfl | ⟨2, _⟩ => rfl
  rw [el, er, rowsA_apply x3 x5 hr]

/-- The reference's result, at every index, is the layer's function of the argument arrays. -/
theorem ref_eq (x0 : S32x2048x1024.Idx → EReal) (x1 : S1024x1024.Idx → EReal) (x2 : S1024.Idx → EReal)
    (x3 : S10x4x1024.Idx → EReal) (x4 : S10x1024x4.Idx → EReal) (x5 : IVec S32 32) (hr : ∀ k, InRange (x5 k)) :
    val_main_v22 (F := Ideal) x0 x1 x2 x3 x4 x5 = G x0 x1 x2 x3 x4 (adapterOf x5) := by
  funext i
  obtain ⟨b, s, o, rfl⟩ : ∃ b s o, i = ix3 b s o := ⟨i 0, i 1, i 2, eq_ix3 i⟩
  rw [val_main_v22_apply, val_main_v3_apply, val_main_v0_apply, val_main_v2_apply, val_main_v1_apply, val_main_v21_apply,
    val_main_v20_apply, val_main_cst_apply, val_main_v19_apply]
  unfold G
  have e1 : ∀ k : Fin 1024, lidx_main_v0 (ix3 b s o) k = ix3 b s k := fun k => funext fun a => match a with | ⟨0, _⟩ => rfl | ⟨1, _⟩ => rfl | ⟨2, _⟩ => rfl
  have e2 : ∀ k : Fin 1024, ridx_main_v0 (ix3 b s o) k = ix2 o k := fun k => funext fun a => match a with | ⟨0, _⟩ => rfl | ⟨1, _⟩ => rfl
  have e3 : idx_main_v1 (idx_main_v2 (ix3 b s o)) = ix1 o := funext fun a => match a with | ⟨0, _⟩ => rfl
  have e4 : ∀ r : Fin 4, lidx_main_v19 (ix3 b s o) r = ix3 b s r := fun r => funext fun a => match a with | ⟨0, _⟩ => rfl | ⟨1, _⟩ => rfl | ⟨2, _⟩ => rfl
  have e5 : ∀ r : Fin 4, ridx_main_v19 (ix3 b s o) r = ix3 b o r := fun r => funext fun a => match a with | ⟨0, _⟩ => rfl | ⟨1, _⟩ => rfl | ⟨2, _⟩ => rfl
  simp only [e1, e2, e3, e4, e5, lowrank_apply x0 x3 x5 hr, rowsB_apply x4 x5 hr]
  rfl

end Cert.ReferenceIdeal.RefValue

end
-- ==== Proof.lean ====
/-
  The certificate of a subject-conditioned linear layer: a base linear map plus a per-row low-rank adapter,

    out[b, s, o] = (Σ_k x[b, s, k] · W[o, k] + bias[o]) + ¼ · Σ_r (Σ_k x[b, s, k] · A[a_b, r, k]) · B[a_b, o, r],

  a_b the adapter batch row b's subject id names. The kernel clamps the ids into [0, 9] before they drive its block
  index maps; the reference indexes the adapter stacks with them as numpy does (a negative id wraps, then the gather
  clamps). The two agree exactly where every id is one of the ten adapters' numbers, 0 ≤ id < 10, which the precondition
  states beside the float inputs' finiteness (for an id in [-9, -1] the reference reads adapter id + 10, the kernel
  adapter 0).

  Frames: the kernel's two programs run under the pipeline's side condition of the prefetched table — the two adapter
  windows' blocks lie inside the stacks — which holds because the table's entries are below 10 (AdapterBits.lean,
  AdapterIdeal.lean, from PreRange.lean's reading of the precondition); the reference's frame is its run with the
  result dropped. Nothing was rewritten by the ideal pass, so the idealization claim is trivial. Value: the idealized
  kernel's result array ends at the layer's function G of the arguments (LayerValue.lean over TileValue.lean: each grid
  point's tile, read through its blocks, is a block of G, and the blocks fill the array); the reference's term is G as
  well (RefValue.lean); G is stated once (LoraSpec.lean). No law of the extended reals is needed beyond reading each
  contraction as a sum: both programs multiply and add in the same order.
-/
import proofs.«404578_j89489938579611_3_alg».proof.Defs
import proofs.«404578_j89489938579611_3_alg».proof.Proof.Gen.Kernel
import proofs.«404578_j89489938579611_3_alg».proof.Proof.Gen.Kernel.Skeleton
import proofs.«404578_j89489938579611_3_alg».proof.Proof.Gen.Kernel.Launch
import proofs.«404578_j89489938579611_3_alg».proof.Proof.Gen.Kernel.Points
import proofs.«404578_j89489938579611_3_alg».proof.Proof.Gen.Kernel.Frame
import proofs.«404578_j89489938579611_3_alg».proof.Proof.Gen.KernelIdeal
import proofs.«404578_j89489938579611_3_alg».proof.Proof.Gen.KernelIdeal.Skeleton
import proofs.«404578_j89489938579611_3_alg».proof.Proof.Gen.KernelIdeal.Launch
import proofs.«404578_j89489938579611_3_alg».proof.Proof.Gen.KernelIdeal.Points
import proofs.«404578_j89489938579611_3_alg».proof.Proof.Gen.KernelIdeal.Frame
import proofs.«404578_j89489938579611_3_alg».proof.Proof.Gen.ReferenceIdeal
import proofs.«404578_j89489938579611_3_alg».proof.Proof.Gen.ReferenceIdeal.Run
import proofs.«404578_j89489938579611_3_alg».proof.Proof.Gen.ReferenceIdeal.Read
import proofs.«404578_j89489938579611_3_alg».proof.Proof.Gen.Pre_finite_inputs
import proofs.«404578_j89489938579611_3_alg».proof.Proof.PreRange
import proofs.«404578_j89489938579611_3_alg».proof.Proof.AdapterBits
import proofs.«404578_j89489938579611_3_alg».proof.Proof.AdapterIdeal
import proofs.«404578_j89489938579611_3_alg».proof.Proof.LayerValue
import proofs.«404578_j89489938579611_3_alg».proof.Proof.RefValue
import Idealize.ShloMosaic.Adequacy
import Idealize.ShloMosaic.Init

noncomputable section

namespace Cert.Proof

open Idealize.ShloMosaic Idealize.SL.Sem

/-- The precondition of the word-level kernel says every subject id is in range. -/
theorem range_bits (m : (ℓ : Loc Cert.Kernel.nD Cert.Kernel.τ Cert.Kernel.sig) → Buf (Elt Bits) ℓ)
    (h : Cert.Pre_Kernel m) : ∀ k, Cert.Lora.Words.InRange (Cert.Kernel.Adapter.ids m k) :=
  fun k => Cert.Lora.PreRange.range_of_pre _ _ _ _ _ _ (h 0) k

/-- The precondition of the idealized kernel says the same. -/
theorem range_ideal (m : (ℓ : Loc Cert.KernelIdeal.nD Cert.KernelIdeal.τ Cert.KernelIdeal.sig) → Buf (Elt Ideal) ℓ)
    (h : Cert.Pre_KernelIdeal m) : ∀ k, Cert.Lora.Words.InRange (Cert.KernelIdeal.Adapter.ids m k) :=
  fun k => Cert.Lora.PreRange.range_of_pre _ _ _ _ _ _ (h 0) k

/-- From memories agreeing on the arguments both idealized programs end at G of them. -/
theorem algebraic : Cert.algebraic_KernelIdeal_ReferenceIdeal := by
  intro m ρ m' ρ' hpre hagree
  have hr := range_ideal m hpre
  have hO := Cert.KernelIdeal.Adapter.ok_of_range m hr
  refine ⟨fun c => Cert.KernelIdeal.Layer.result m c, Cert.KernelIdeal.Layer.run m ρ hO hr, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  show _ = Cert.KernelIdeal.Layer.result m 0
  rw [Cert.ReferenceIdeal.Read.val_main_v22_eq, (hagree 0).1, (hagree 0).2.1, (hagree 0).2.2.1, (hagree 0).2.2.2.1,
    (hagree 0).2.2.2.2.1, (hagree 0).2.2.2.2.2]
  exact Cert.ReferenceIdeal.RefValue.ref_eq _ _ _ _ _ _ hr

theorem claim : Cert.Claim := ⟨Cert.Kernel.Gen.facts, Cert.KernelIdeal.Gen.facts, Cert.ReferenceIdeal.Gen.facts, Cert.Pre_finite_inputs.Gen.facts,
  fun m ρ h => Cert.Kernel.Gen.frame m ρ (Cert.Kernel.Adapter.ok_of_range m (range_bits m h)),
  fun m ρ h => Cert.KernelIdeal.Gen.frame m ρ (Cert.KernelIdeal.Adapter.ok_of_range m (range_ideal m h)),
  fun m ρ _ => (θ_run Cert.ReferenceIdeal.defs _ _).mono (fun _ h c => (h c).2) (Cert.ReferenceIdeal.Value.run (F := Ideal) m ρ),
  trivial,
  algebraic⟩

end Cert.Proof

end
